-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S2x2 : Shape := ⟨2, ![2, 2]⟩
abbrev S2 : Shape := ⟨1, ![2]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg14 : FVec F S2 .f32) (main_arg15 : FVec F S2x2 .f32) (main_arg16 : FVec F S2 .f32) (main_v63 : IVec S_ 1) (main_v67 : IVec S_ 1) : IVec S_ 1 :=
  let main_v68 : IVec S_ 1 := andi main_v63 main_v67
  let main_v69 : FVec F S2 .f32 := Host.absf main_arg14
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  let main_v74 : FVec F S2x2 .f32 := Host.absf main_arg15
  let main_cst_28 : FVec F S_ .f32 := constant S_ .f32 0x7F800000#32
  let main_v75 : FVec F S2x2 .f32 := broadcastInDim S2x2 ![] bcast_S_S2x2 main_cst_28
  let main_v76 : IVec S2x2 1 := cmpf .olt main_v74 main_v75
  let main_c_29 : IVec S_ 1 := constantI S_ 1 1#1
  let main_v77 : IVec S_ 1 := (fun x v => Host.reduce IntOp.andi x v reducesTo_S2x2_S_d0_1 h_S_) main_v76 main_c_29
  let main_v78 : IVec S_ 1 := andi main_v73 main_v77
  let main_v79 : FVec F S2 .f32 := Host.absf main_arg16
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg11 : FVec F S2x2 .f32) (main_arg12 : FVec F S2 .f32) (main_arg13 : FVec F S2x2 .f32) (main_arg14 : FVec F S2 .f32) (main_arg15 : FVec F S2x2 .f32) (main_arg16 : FVec F S2 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S2x2 .f32 := Host.absf main_arg11
  let main_cst_20 : FVec F S_ .f32 := constant S_ .f32 0x7F800000#32
  let main_v55 : FVec F S2x2 .f32 := broadcastInDim S2x2 ![] bcast_S_S2x2 main_cst_20
  let main_v56 : IVec S2x2 1 := cmpf .olt main_v54 main_v55
  let main_c_21 : IVec S_ 1 := constantI S_ 1 1#1
  let main_v57 : IVec S_ 1 := (fun x v => Host.reduce IntOp.andi x v reducesTo_S2x2_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_v64 : FVec F S2x2 .f32 := Host.absf main_arg13
  let main_cst_24 : FVec F S_ .f32 := constant S_ .f32 0x7F800000#32
  let main_v65 : FVec F S2x2 .f32 := broadcastInDim S2x2 ![] bcast_S_S2x2 main_cst_24
  let main_v66 : IVec S2x2 1 := cmpf .olt main_v64 main_v65
  let main_c_25 : IVec S_ 1 := constantI S_ 1 1#1
  let main_v67 : IVec S_ 1 := (fun x v => Host.reduce IntOp.andi x v reducesTo_S2x2_S_d0_1 h_S_) main_v66 main_c_25
  fn_part4 (F := F) main_arg14 main_arg15 main_arg16 main_v63 main_v67

def fn_part2 {F : FTy → Type} [FloatOps F] (main_arg7 : FVec F S2x2 .f32) (main_arg8 : FVec F S2 .f32) (main_arg9 : FVec F S2x2 .f32) (main_arg10 : FVec F S2 .f32) (main_arg11 : FVec F S2x2 .f32) (main_arg12 : FVec F S2 .f32) (main_arg13 : FVec F S2x2 .f32) (main_arg14 : FVec F S2 .f32) (main_arg15 : FVec F S2x2 .f32) (main_arg16 : FVec F S2 .f32) (main_v33 : IVec S_ 1) : IVec S_ 1 :=
  let main_v34 : FVec F S2x2 .f32 := Host.absf main_arg7
  let main_cst_12 : FVec F S_ .f32 := constant S_ .f32 0x7F800000#32
  let main_v35 : FVec F S2x2 .f32 := broadcastInDim S2x2 ![] bcast_S_S2x2 main_cst_12
  let main_v36 : IVec S2x2 1 := cmpf .olt main_v34 main_v35
  let main_c_13 : IVec S_ 1 := constantI S_ 1 1#1
  let main_v37 : IVec S_ 1 := (fun x v => Host.reduce IntOp.andi x v reducesTo_S2x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S2x2 .f32 := Host.absf main_arg9
  let main_cst_16 : FVec F S_ .f32 := constant S_ .f32 0x7F800000#32
  let main_v45 : FVec F S2x2 .f32 := broadcastInDim S2x2 ![] bcast_S_S2x2 main_cst_16
  let main_v46 : IVec S2x2 1 := cmpf .olt main_v44 main_v45
  let main_c_17 : IVec S_ 1 := constantI S_ 1 1#1
  let main_v47 : IVec S_ 1 := (fun x v => Host.reduce IntOp.andi x v reducesTo_S2x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_arg11 main_arg12 main_arg13 main_arg14 main_arg15 main_arg16 main_v48 main_v49 main_v50

def fn_part1 {F : FTy → Type} [FloatOps F] (main_arg4 : FVec F S2 .f32) (main_arg5 : FVec F S2x2 .f32) (main_arg6 : FVec F S2 .f32) (main_arg7 : FVec F S2x2 .f32) (main_arg8 : FVec F S2 .f32) (main_arg9 : FVec F S2x2 .f32) (main_arg10 : FVec F S2 .f32) (main_arg11 : FVec F S2x2 .f32) (main_arg12 : FVec F S2 .f32) (main_arg13 : FVec F S2x2 .f32) (main_arg14 : FVec F S2 .f32) (main_arg15 : FVec F S2x2 .f32) (main_arg16 : FVec F S2 .f32) (main_v13 : IVec S_ 1) (main_v16 : IVec S2x2 1) : IVec S_ 1 :=
  let main_c_5 : IVec S_ 1 := constantI S_ 1 1#1
  let main_v17 : IVec S_ 1 := (fun x v => Host.reduce IntOp.andi x v reducesTo_S2x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S2x2 .f32 := Host.absf main_arg5
  let main_cst_8 : FVec F S_ .f32 := constant S_ .f32 0x7F800000#32
  let main_v25 : FVec F S2x2 .f32 := broadcastInDim S2x2 ![] bcast_S_S2x2 main_cst_8
  let main_v26 : IVec S2x2 1 := cmpf .olt main_v24 main_v25
  let main_c_9 : IVec S_ 1 := constantI S_ 1 1#1
  let main_v27 : IVec S_ 1 := (fun x v => Host.reduce IntOp.andi x v reducesTo_S2x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8388608x2 .f32) (main_arg1 : FVec F S2x2 .f32) (main_arg2 : FVec F S2 .f32) (main_arg3 : FVec F S2x2 .f32) (main_arg4 : FVec F S2 .f32) (main_arg5 : FVec F S2x2 .f32) (main_arg6 : FVec F S2 .f32) (main_arg7 : FVec F S2x2 .f32) (main_arg8 : FVec F S2 .f32) (main_arg9 : FVec F S2x2 .f32) (main_arg10 : FVec F S2 .f32) (main_arg11 : FVec F S2x2 .f32) (main_arg12 : FVec F S2 .f32) (main_arg13 : FVec F S2x2 .f32) (main_arg14 : FVec F S2 .f32) (main_arg15 : FVec F S2x2 .f32) (main_arg16 : FVec F S2 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S2x2 .f32 := Host.absf main_arg1
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S2x2 .f32 := Host.absf main_arg3
  let main_cst_4 : FVec F S_ .f32 := constant S_ .f32 0x7F800000#32
  let main_v15 : FVec F S2x2 .f32 := broadcastInDim S2x2 ![] bcast_S_S2x2 main_cst_4
  let main_v16 : IVec S2x2 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8388608x2 : Shape := ⟨2, ![8388608, 2]⟩
abbrev S2x2 : Shape := ⟨2, ![2, 2]⟩
abbrev S2 : Shape := ⟨1, ![2]⟩
abbrev S16384x2 : Shape := ⟨2, ![16384, 2]⟩
abbrev S16384x1 : Shape := ⟨2, ![16384, 1]⟩
abbrev S16384 : Shape := ⟨1, ![16384]⟩
abbrev S1x1 : Shape := ⟨2, ![1, 1]⟩
abbrev S1 : Shape := ⟨1, ![1]⟩

abbrev nBuf : Space → Nat
  | .hbm => 18
  | .vmem => 20
  | .smem => 0
  | _ => 0

abbrev bufTy : (tb : Table) → Fin (tcTables nBuf tb) → BufTy
  | .hbm, ⟨0, _⟩ => ⟨S8388608x2, .f32⟩
  | .hbm, ⟨1, _⟩ => ⟨S2x2, .f32⟩
  | .hbm, ⟨2, _⟩ => ⟨S2, .f32⟩
  | .hbm, ⟨3, _⟩ => ⟨S2x2, .f32⟩
  | .hbm, ⟨4, _⟩ => ⟨S2, .f32⟩
  | .hbm, ⟨5, _⟩ => ⟨S2x2, .f32⟩
  | .hbm, ⟨6, _⟩ => ⟨S2, .f32⟩
  | .hbm, ⟨7, _⟩ => ⟨S2x2, .f32⟩
  | .hbm, ⟨8, _⟩ => ⟨S2, .f32⟩
  | .hbm, ⟨9, _⟩ => ⟨S2x2, .f32⟩
  | .hbm, ⟨10, _⟩ => ⟨S2, .f32⟩
  | .hbm, ⟨11, _⟩ => ⟨S2x2, .f32⟩
  | .hbm, ⟨12, _⟩ => ⟨S2, .f32⟩
  | .hbm, ⟨13, _⟩ => ⟨S2x2, .f32⟩
  | .hbm, ⟨14, _⟩ => ⟨S2, .f32⟩
  | .hbm, ⟨15, _⟩ => ⟨S2x2, .f32⟩
  | .hbm, ⟨16, _⟩ => ⟨S2, .f32⟩
  | .hbm, ⟨17, _⟩ => ⟨S8388608x2, .f32⟩
  | .local _ .vmem, ⟨0, _⟩ => ⟨S16384x2, .f32⟩
  | .local _ .vmem, ⟨1, _⟩ => ⟨S16384x2, .f32⟩
  | .local _ .vmem, ⟨2, _⟩ => ⟨S2x2, .f32⟩
  | .local _ .vmem, ⟨3, _⟩ => ⟨S2, .f32⟩
  | .local _ .vmem, ⟨4, _⟩ => ⟨S2x2, .f32⟩
  | .local _ .vmem, ⟨5, _⟩ => ⟨S2, .f32⟩
  | .local _ .vmem, ⟨6, _⟩ => ⟨S2x2, .f32⟩
  | .local _ .vmem, ⟨7, _⟩ => ⟨S2, .f32⟩
  | .local _ .vmem, ⟨8, _⟩ => ⟨S2x2, .f32⟩
  | .local _ .vmem, ⟨9, _⟩ => ⟨S2, .f32⟩
  | .local _ .vmem, ⟨10, _⟩ => ⟨S2x2, .f32⟩
  | .local _ .vmem, ⟨11, _⟩ => ⟨S2, .f32⟩
  | .local _ .vmem, ⟨12, _⟩ => ⟨S2x2, .f32⟩
  | .local _ .vmem, ⟨13, _⟩ => ⟨S2, .f32⟩
  | .local _ .vmem, ⟨14, _⟩ => ⟨S2x2, .f32⟩
  | .local _ .vmem, ⟨15, _⟩ => ⟨S2, .f32⟩
  | .local _ .vmem, ⟨16, _⟩ => ⟨S2x2, .f32⟩
  | .local _ .vmem, ⟨17, _⟩ => ⟨S2, .f32⟩
  | .local _ .vmem, ⟨18, _⟩ => ⟨S16384x2, .f32⟩
  | .local _ .vmem, ⟨19, _⟩ => ⟨S16384x2, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S16384x2 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  inb_S16384x2_S16384x1_0_0 : ∀ a, (![0, 0] : Fin 2 → Nat) a + S16384x1.size a ≤ S16384x2.size a
  h_S16384x1 : 0 < S16384x1.numel
  shapeCasts_S16384x1_S16384 : S16384x1.ShapeCasts S16384
  inb_S16384x2_S16384x1_0_1 : ∀ a, (![0, 1] : Fin 2 → Nat) a + S16384x1.size a ≤ S16384x2.size a
  inb_S2x2_S2x2_0_0 : ∀ a, (![0, 0] : Fin 2 → Nat) a + S2x2.size a ≤ S2x2.size a
  h_S2x2 : 0 < S2x2.numel
  inb_S2_S2_0 : ∀ a, (![0] : Fin 1 → Nat) a + S2.size a ≤ S2.size a
  h_S2 : 0 < S2.numel
  slices_S2x2_o0_0_S1x1 : S2x2.Slices ![0, 0] S1x1
  inpos_S1x1_p0_0 : ∀ a, (![0, 0] : Fin 2 → Nat) a < S1x1.size a
  slices_S2x2_o0_1_S1x1 : S2x2.Slices ![0, 1] S1x1
  slices_S2_o0_S1 : S2.Slices ![0] S1
  inpos_S1_p0 : ∀ a, (![0] : Fin 1 → Nat) a < S1.size a
  slices_S2x2_o1_0_S1x1 : S2x2.Slices ![1, 0] S1x1
  slices_S2x2_o1_1_S1x1 : S2x2.Slices ![1, 1] S1x1
  slices_S2_o1_S1 : S2.Slices ![1] S1
  shapeCasts_S16384_S16384x1 : S16384.ShapeCasts S16384x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x2.size a ≤ S8388608x2.size a
  hwx0_0 : ∀ i : grid0.Coords, EltTy.bits .f32 = 32 ∨ (Rect.block (s := S8388608x2) S16384x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2.size a ≤ S2x2.size a
  hwx0_1 : ∀ i : grid0.Coords, EltTy.bits .f32 = 32 ∨ (Rect.block (s := S2x2) S2x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x2.size a ≤ S2x2.size a
  hwx0_3 : ∀ i : grid0.Coords, EltTy.bits .f32 = 32 ∨ (Rect.block (s := S2x2) S2x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2.size a ≤ S2.size a
  hwx0_4 : ∀ i : grid0.Coords, EltTy.bits .f32 = 32 ∨ (Rect.block (s := S2) S2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x2.size a ≤ S2x2.size a
  hwx0_5 : ∀ i : grid0.Coords, EltTy.bits .f32 = 32 ∨ (Rect.block (s := S2x2) S2x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x2.size a ≤ S2x2.size a
  hwx0_7 : ∀ i : grid0.Coords, EltTy.bits .f32 = 32 ∨ (Rect.block (s := S2x2) S2x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2.size a ≤ S2.size a
  hwx0_8 : ∀ i : grid0.Coords, EltTy.bits .f32 = 32 ∨ (Rect.block (s := S2) S2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x2.size a ≤ S2x2.size a
  hwx0_9 : ∀ i : grid0.Coords, EltTy.bits .f32 = 32 ∨ (Rect.block (s := S2x2) S2x2.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2.size a ≤ S2.size a
  hwx0_10 : ∀ i : grid0.Coords, EltTy.bits .f32 = 32 ∨ (Rect.block (s := S2) S2.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x2.size a ≤ S2x2.size a
  hwx0_11 : ∀ i : grid0.Coords, EltTy.bits .f32 = 32 ∨ (Rect.block (s := S2x2) S2x2.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2.size a ≤ S2.size a
  hwx0_12 : ∀ i : grid0.Coords, EltTy.bits .f32 = 32 ∨ (Rect.block (s := S2) S2.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2x2.size a ≤ S2x2.size a
  hwx0_13 : ∀ i : grid0.Coords, EltTy.bits .f32 = 32 ∨ (Rect.block (s := S2x2) S2x2.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2.size a ≤ S2.size a
  hwx0_14 : ∀ i : grid0.Coords, EltTy.bits .f32 = 32 ∨ (Rect.block (s := S2) S2.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2x2.size a ≤ S2x2.size a
  hwx0_15 : ∀ i : grid0.Coords, EltTy.bits .f32 = 32 ∨ (Rect.block (s := S2x2) S2x2.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2.size a ≤ S2.size a
  hwx0_16 : ∀ i : grid0.Coords, EltTy.bits .f32 = 32 ∨ (Rect.block (s := S2) S2.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S16384x2.size a ≤ S8388608x2.size a
  hwx0_17 : ∀ i : grid0.Coords, EltTy.bits .f32 = 32 ∨ (Rect.block (s := S8388608x2) S16384x2.size (cc0_transform_17 i) (hinb0_17 i)).WholeWords (EltTy.packing .f32)

variable [Facts₀]

abbrev win0_0 : Pipeline.Window sig grid0 :=
  Pipeline.Window.ofSpec (Memref.whole main_arg0) S16384x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S2x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S2x2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S2.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S2x2.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S2.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0) S16384x2.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S2x2 : Shape := ⟨2, ![2, 2]⟩
abbrev S2 : Shape := ⟨1, ![2]⟩
abbrev S1x2 : Shape := ⟨2, ![1, 2]⟩
abbrev S_ : Shape := ⟨0, ![]⟩

abbrev nBuf : Space → Nat
  | .hbm => 90
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S2x2, .f32⟩
  | .hbm, ⟨2, _⟩ => ⟨S2, .f32⟩
  | .hbm, ⟨3, _⟩ => ⟨S2x2, .f32⟩
  | .hbm, ⟨4, _⟩ => ⟨S2, .f32⟩
  | .hbm, ⟨5, _⟩ => ⟨S2x2, .f32⟩
  | .hbm, ⟨6, _⟩ => ⟨S2, .f32⟩
  | .hbm, ⟨7, _⟩ => ⟨S2x2, .f32⟩
  | .hbm, ⟨8, _⟩ => ⟨S2, .f32⟩
  | .hbm, ⟨9, _⟩ => ⟨S2x2, .f32⟩
  | .hbm, ⟨10, _⟩ => ⟨S2, .f32⟩
  | .hbm, ⟨11, _⟩ => ⟨S2x2, .f32⟩
  | .hbm, ⟨12, _⟩ => ⟨S2, .f32⟩
  | .hbm, ⟨13, _⟩ => ⟨S2x2, .f32⟩
  | .hbm, ⟨14, _⟩ => ⟨S2, .f32⟩
  | .hbm, ⟨15, _⟩ => ⟨S2x2, .f32⟩
  | .hbm, ⟨16, _⟩ => ⟨S2, .f32⟩
  | .hbm, ⟨17, _⟩ => ⟨S2x2, .f32⟩
  | .hbm, ⟨18, _⟩ => ⟨S8388608x2, .f32⟩
  | .hbm, ⟨19, _⟩ => ⟨S1x2, .f32⟩
  | .hbm, ⟨20, _⟩ => ⟨S8388608x2, .f32⟩
  | .hbm, ⟨21, _⟩ => ⟨S8388608x2, .f32⟩
  | .hbm, ⟨22, _⟩ => ⟨S_, .f32⟩
  | .hbm, ⟨23, _⟩ => ⟨S8388608x2, .f32⟩
  | .hbm, ⟨24, _⟩ => ⟨S8388608x2, .f32⟩
  | .hbm, ⟨25, _⟩ => ⟨S2x2, .f32⟩
  | .hbm, ⟨26, _⟩ => ⟨S8388608x2, .f32⟩
  | .hbm, ⟨27, _⟩ => ⟨S1x2, .f32⟩
  | .hbm, ⟨28, _⟩ => ⟨S8388608x2, .f32⟩
  | .hbm, ⟨29, _⟩ => ⟨S8388608x2, .f32⟩
  | .hbm, ⟨30, _⟩ => ⟨S_, .f32⟩
  | .hbm, ⟨31, _⟩ => ⟨S8388608x2, .f32⟩
  | .hbm, ⟨32, _⟩ => ⟨S8388608x2, .f32⟩
  | .hbm, ⟨33, _⟩ => ⟨S2x2, .f32⟩
  | .hbm, ⟨34, _⟩ => ⟨S8388608x2, .f32⟩
  | .hbm, ⟨35, _⟩ => ⟨S1x2, .f32⟩
  | .hbm, ⟨36, _⟩ => ⟨S8388608x2, .f32⟩
  | .hbm, ⟨37, _⟩ => ⟨S8388608x2, .f32⟩
  | .hbm, ⟨38, _⟩ => ⟨S_, .f32⟩
  | .hbm, ⟨39, _⟩ => ⟨S8388608x2, .f32⟩
  | .hbm, ⟨40, _⟩ => ⟨S8388608x2, .f32⟩
  | .hbm, ⟨41, _⟩ => ⟨S8388608x2, .f32⟩
  | .hbm, ⟨42, _⟩ => ⟨S2x2, .f32⟩
  | .hbm, ⟨43, _⟩ => ⟨S8388608x2, .f32⟩
  | .hbm, ⟨44, _⟩ => ⟨S1x2, .f32⟩
  | .hbm, ⟨45, _⟩ => ⟨S8388608x2, .f32⟩
  | .hbm, ⟨46, _⟩ => ⟨S8388608x2, .f32⟩
  | .hbm, ⟨47, _⟩ => ⟨S_, .f32⟩
  | .hbm, ⟨48, _⟩ => ⟨S8388608x2, .f32⟩
  | .hbm, ⟨49, _⟩ => ⟨S8388608x2, .f32⟩
  | .hbm, ⟨50, _⟩ => ⟨S2x2, .f32⟩
  | .hbm, ⟨51, _⟩ => ⟨S8388608x2, .f32⟩
  | .hbm, ⟨52, _⟩ => ⟨S1x2, .f32⟩
  | .hbm, ⟨53, _⟩ => ⟨S8388608x2, .f32⟩
  | .hbm, ⟨54, _⟩ => ⟨S8388608x2, .f32⟩
  | .hbm, ⟨55, _⟩ => ⟨S_, .f32⟩
  | .hbm, ⟨56, _⟩ => ⟨S8388608x2, .f32⟩
  | .hbm, ⟨57, _⟩ => ⟨S8388608x2, .f32⟩
  | .hbm, ⟨58, _⟩ => ⟨S8388608x2, .f32⟩
  | .hbm, ⟨59, _⟩ => ⟨S2x2, .f32⟩
  | .hbm, ⟨60, _⟩ => ⟨S8388608x2, .f32⟩
  | .hbm, ⟨61, _⟩ => ⟨S1x2, .f32⟩
  | .hbm, ⟨62, _⟩ => ⟨S8388608x2, .f32⟩
  | .hbm, ⟨63, _⟩ => ⟨S8388608x2, .f32⟩
  | .hbm, ⟨64, _⟩ => ⟨S_, .f32⟩
  | .hbm, ⟨65, _⟩ => ⟨S8388608x2, .f32⟩
  | .hbm, ⟨66, _⟩ => ⟨S8388608x2, .f32⟩
  | .hbm, ⟨67, _⟩ => ⟨S2x2, .f32⟩
  | .hbm, ⟨68, _⟩ => ⟨S8388608x2, .f32⟩
  | .hbm, ⟨69, _⟩ => ⟨S1x2, .f32⟩
  | .hbm, ⟨70, _⟩ => ⟨S8388608x2, .f32⟩
  | .hbm, ⟨71, _⟩ => ⟨S8388608x2, .f32⟩
  | .hbm, ⟨72, _⟩ => ⟨S_, .f32⟩
  | .hbm, ⟨73, _⟩ => ⟨S8388608x2, .f32⟩
  | .hbm, ⟨74, _⟩ => ⟨S8388608x2, .f32⟩
  | .hbm, ⟨75, _⟩ => ⟨S8388608x2, .f32⟩
  | .hbm, ⟨76, _⟩ => ⟨S2x2, .f32⟩
  | .hbm, ⟨77, _⟩ => ⟨S8388608x2, .f32⟩
  | .hbm, ⟨78, _⟩ => ⟨S1x2, .f32⟩
  | .hbm, ⟨79, _⟩ => ⟨S8388608x2, .f32⟩
  | .hbm, ⟨80, _⟩ => ⟨S8388608x2, .f32⟩
  | .hbm, ⟨81, _⟩ => ⟨S2x2, .f32⟩
  | .hbm, ⟨82, _⟩ => ⟨S8388608x2, .f32⟩
  | .hbm, ⟨83, _⟩ => ⟨S1x2, .f32⟩
  | .hbm, ⟨84, _⟩ => ⟨S8388608x2, .f32⟩
  | .hbm, ⟨85, _⟩ => ⟨S8388608x2, .f32⟩
  | .hbm, ⟨86, _⟩ => ⟨S8388608x2, .f32⟩
  | .hbm, ⟨87, _⟩ => ⟨S_, .f32⟩
  | .hbm, ⟨88, _⟩ => ⟨S8388608x2, .f32⟩
  | .hbm, ⟨89, _⟩ => ⟨S8388608x2, .f32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_cst : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_cst : Ref sig .tc := ⟨.hbm, 30, rfl⟩
abbrev main_call1_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call2_cst : Ref sig .tc := ⟨.hbm, 38, rfl⟩
abbrev main_call2_v0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call3_cst : Ref sig .tc := ⟨.hbm, 47, rfl⟩
abbrev main_call3_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call4_cst : Ref sig .tc := ⟨.hbm, 55, rfl⟩
abbrev main_call4_v0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call5_cst : Ref sig .tc := ⟨.hbm, 64, rfl⟩
abbrev main_call5_v0 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call6_cst : Ref sig .tc := ⟨.hbm, 72, rfl⟩
abbrev main_call6_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_call7_cst : Ref sig .tc := ⟨.hbm, 87, rfl⟩
abbrev main_call7_v0 : Ref sig .tc := ⟨.hbm, 88, rfl⟩
abbrev main_v56 : Ref sig .tc := ⟨.hbm, 89, rfl⟩

abbrev nD : Nat := 1
abbrev τ : Topo := Topo.v7x

variable {F : FTy → Type} [FloatOps F]

class Facts₀ : Prop where
  transposes_S2x2_S2x2_1_0 : S2x2.Transposes [1, 0] S2x2
  bcast_S2_S1x2_1 : S2.BroadcastsInDim S1x2 (![1] : Fin 1 → Fin S1x2.rank)
  bcast_S1x2_S8388608x2_0_1 : S1x2.BroadcastsInDim S8388608x2 (![0, 1] : Fin 2 → Fin S8388608x2.rank)
  bcast_S_S8388608x2 : S_.BroadcastsInDim S8388608x2 (![] : Fin 0 → Fin S8388608x2.rank)
  dot_S8388608x2_S2x2_S8388608x2_1_0_0_1_n_n_wf : DotDims.WF S8388608x2 S2x2 S8388608x2 [1] [0] [0] [1] [] []

variable [Facts₀]

def dot_S8388608x2_S2x2_S8388608x2_1_0_0_1_n_n : DotDims S8388608x2 S2x2 S8388608x2 where
  lhsContracting := [1]
  rhsContracting := [0]
  lhsNonContracting := [0]
  rhsNonContracting := [1]
  lhsBatch := []
  rhsBatch := []
  wf := dot_S8388608x2_S2x2_S8388608x2_1_0_0_1_n_n_wf

class Facts : Prop extends Facts₀ where

variable [Facts]
-- ==== Proof.Spec.lean ====
/-
  The network both programs compute, on ONE row of activations.

  A row is a pair of extended reals. An affine layer with a 2×2 weight matrix `w` (stored [out, in]) and a bias `b`
  sends the row `u` to the row whose coordinate `j` is `u₀·w(j,0) + u₁·w(j,1) + b(j)` — the two products added first, the
  bias last; `relu` is the coordinatewise maximum with zero. The network is

      o  = relu (L₁₃ (relu (L₁₂ (relu (L₁₁ x))))) + x          (the trunk, with its residual)
      p  = relu (L₂₂ (relu (L₂₁ o))) + o                        (first branch)
      q  = relu (L₃₂ (relu (L₃₁ o))) + o                        (second branch)
      y  = relu (L₄₁ p + L₄₁ q)                                 (the shared last layer on both, summed)

  applied to every row of the [8388608, 2] input independently. Nothing here needs the entries to be finite: both
  programs perform these very operations in this very order.
-/
import Idealize.ShloMosaic.PureOps.Ideal
import Idealize.ShloMosaic.Lib.ValueIdx

noncomputable section

namespace Cert.RowNet

open Idealize.ShloMosaic Idealize.ShloMosaic.ValueIdx

/-- A 2×2 weight matrix, indexed [out, in]. -/
abbrev Mat := (⟨2, ![2, 2]⟩ : Shape).Idx → EReal
/-- A bias of length 2. -/
abbrev Bias := (⟨1, ![2]⟩ : Shape).Idx → EReal
/-- The [8388608, 2] array of activations. -/
abbrev Arr := (⟨2, ![8388608, 2]⟩ : Shape).Idx → EReal
/-- One row of activations. -/
abbrev Row := Fin 2 → EReal

/-- The affine layer on a row: coordinate `j` is `u₀·w(j,0) + u₁·w(j,1) + b(j)`. -/
def lin (w : Mat) (b : Bias) (u : Row) : Row := fun j => u 0 * w (ix2 j 0) + u 1 * w (ix2 j 1) + b (ix1 j)

/-- The coordinatewise maximum with zero. -/
def relu (u : Row) : Row := fun j => max (u j) 0

/-- The coordinatewise sum of two rows. -/
def add (u v : Row) : Row := fun j => u j + v j

/-- The eight layers' weights and biases. -/
structure Params where
  w11 : Mat
  b11 : Bias
  w12 : Mat
  b12 : Bias
  w13 : Mat
  b13 : Bias
  w21 : Mat
  b21 : Bias
  w22 : Mat
  b22 : Bias
  w31 : Mat
  b31 : Bias
  w32 : Mat
  b32 : Bias
  w41 : Mat
  b41 : Bias

/-- The trunk: three layers with relu, then the residual. -/
def trunk (P : Params) (x : Row) : Row :=
  add (relu (lin P.w13 P.b13 (relu (lin P.w12 P.b12 (relu (lin P.w11 P.b11 x)))))) x

/-- A branch: two layers with relu on the trunk's row `o`, then the residual with `o`. -/
def branch (w1 : Mat) (b1 : Bias) (w2 : Mat) (b2 : Bias) (o : Row) : Row :=
  add (relu (lin w2 b2 (relu (lin w1 b1 o)))) o

/-- The whole network on a row. -/
def net (P : Params) (x : Row) : Row :=
  relu (add (lin P.w41 P.b41 (branch P.w21 P.b21 P.w22 P.b22 (trunk P x)))
            (lin P.w41 P.b41 (branch P.w31 P.b31 P.w32 P.b32 (trunk P x))))

/-- Row `n` of an array. -/
def rowOf (X : Arr) (n : Fin 8388608) : Row := fun k => X (ix2 n k)

/-- The network applied to every row of the array: entry `(n, j)` is coordinate `j` of the network on row `n`. -/
def G (P : Params) (X : Arr) : Arr := fun i => net P (rowOf X (i 0)) (i 1)

theorem G_ix2 (P : Params) (X : Arr) (n : Fin 8388608) (j : Fin 2) : G P X (ix2 n j) = net P (rowOf X n) j := rfl

/-- Two arrays with the same rows are equal. -/
theorem arr_ext {X Y : Arr} (h : ∀ n, rowOf X n = rowOf Y n) : X = Y := by
  funext i
  rw [eq_ix2 i]
  exact congrFun (h (i 0)) (i 1)

end Cert.RowNet

end
-- ==== Proof.KernelBlock.lean ====
/-
  What the kernel's body leaves in one [16384, 2] output block, as a function of its input blocks.

  The body splits the input block into its two columns, runs the network on them as lane-dense vectors of length
  16384 — every operation pointwise, the weights' entries and the biases' read out as scalars and splatted — and stores
  the two result columns through the rectangles of column 0 and column 1 of the output block. The two rectangles tile
  the block, so at the block index `(r, j)` the block holds coordinate `j` of the network on row `r` of the input block.
-/
import proofs.«164554_j29884382446070_1_alg».proof.Proof.Gen.KernelIdeal.Frame
import proofs.«164554_j29884382446070_1_alg».proof.Proof.Spec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Cert.RowNet Idealize.ShloMosaic Idealize.ShloMosaic.ValueIdx

/-! ## The body's reads -/

/-- Column 0 of the block, loaded as a [16384, 1] vector, read at row `r`. -/
theorem ld_col0 (X : Vec Ideal S16384x2 .f32) (r : Fin 16384) :
    View.ld (Val := Elt Ideal) X r0_0 (ix2 r 0) = X (ix2 r 0) := by
  show X (r0_0.idx (ix2 r 0)) = _
  congr 1; funext a; apply Fin.ext
  match a with
  | ⟨0, _⟩ => show 0 + 1 * r.val = r.val; omega
  | ⟨1, _⟩ => show 0 + 1 * 0 = 0; omega

/-- Column 1 of the block, loaded as a [16384, 1] vector, read at row `r`. -/
theorem ld_col1 (X : Vec Ideal S16384x2 .f32) (r : Fin 16384) :
    View.ld (Val := Elt Ideal) X r0_1 (ix2 r 0) = X (ix2 r 1) := by
  show X (r0_1.idx (ix2 r 0)) = _
  congr 1; funext a; apply Fin.ext
  match a with
  | ⟨0, _⟩ => show 0 + 1 * r.val = r.val; omega
  | ⟨1, _⟩ => show 1 + 1 * 0 = 1; omega

theorem hz2x2 : (![0, 0] : Fin 2 → Nat) = fun _ => 0 := funext fun a => by fin_cases a <;> rfl
theorem hz2 : (![0] : Fin 1 → Nat) = fun _ => 0 := funext fun a => by fin_cases a; rfl

/-- A column vector [16384, 1] viewed as a vector of length 16384: entry `r` is entry `(r, 0)`. -/
theorem flat_apply (v : S16384x1.Idx → EReal) (h : S16384x1.ShapeCasts S16384) (r : Fin 16384) :
    shapeCast S16384 v h (ix1 r) = v (ix2 r 0) := by
  refine shapeCast_apply v h (ix1 r) (ix2 r 0) ?_
  rw [Shape.rowMajor_val_one, Shape.rowMajor_val_two]
  show r.val * 1 + 0 = r.val
  omega

/-- A vector of length 16384 viewed as a column [16384, 1]: entry `y` is entry `y 0`. -/
theorem column_apply (v : S16384.Idx → EReal) (h : S16384.ShapeCasts S16384x1) (y : S16384x1.Idx) :
    shapeCast S16384x1 v h y = v (ix1 (y 0)) := by
  refine shapeCast_apply v h y (ix1 (y 0)) ?_
  rw [Shape.rowMajor_val_one, Shape.rowMajor_val_two]
  have h1 : (y 1).val < 1 := (y 1).isLt
  show (y 0).val = (y 0).val * 1 + (y 1).val
  omega

/-- The scalar read out of a weight matrix at `(0, 0)`: the 1×1 slice at that offset, then its one entry. -/
theorem entry00 (w : S2x2.Idx → EReal) (hs : S2x2.Slices ![0, 0] S1x1) (hp : ∀ c, (![0, 0] : Fin 2 → Nat) c < S1x1.size c) :
    extractAt ![0, 0] (extractStridedSlice S1x1 ![0, 0] w hs) hp = w (ix2 0 0) := by
  show w _ = w _
  congr 1; funext c; apply Fin.ext
  match c with
  | ⟨0, _⟩ => rfl
  | ⟨1, _⟩ => rfl

/-- The same at `(0, 1)`. -/
theorem entry01 (w : S2x2.Idx → EReal) (hs : S2x2.Slices ![0, 1] S1x1) (hp : ∀ c, (![0, 0] : Fin 2 → Nat) c < S1x1.size c) :
    extractAt ![0, 0] (extractStridedSlice S1x1 ![0, 1] w hs) hp = w (ix2 0 1) := by
  show w _ = w _
  congr 1; funext c; apply Fin.ext
  match c with
  | ⟨0, _⟩ => rfl
  | ⟨1, _⟩ => rfl

/-- The same at `(1, 0)`. -/
theorem entry10 (w : S2x2.Idx → EReal) (hs : S2x2.Slices ![1, 0] S1x1) (hp : ∀ c, (![0, 0] : Fin 2 → Nat) c < S1x1.size c) :
    extractAt ![0, 0] (extractStridedSlice S1x1 ![1, 0] w hs) hp = w (ix2 1 0) := by
  show w _ = w _
  congr 1; funext c; apply Fin.ext
  match c with
  | ⟨0, _⟩ => rfl
  | ⟨1, _⟩ => rfl

/-- The same at `(1, 1)`. -/
theorem entry11 (w : S2x2.Idx → EReal) (hs : S2x2.Slices ![1, 1] S1x1) (hp : ∀ c, (![0, 0] : Fin 2 → Nat) c < S1x1.size c) :
    extractAt ![0, 0] (extractStridedSlice S1x1 ![1, 1] w hs) hp = w (ix2 1 1) := by
  show w _ = w _
  congr 1; funext c; apply Fin.ext
  match c with
  | ⟨0, _⟩ => rfl
  | ⟨1, _⟩ => rfl

/-- The scalar read out of a bias at `0`. -/
theorem bias0 (v : S2.Idx → EReal) (hs : S2.Slices ![0] S1) (hp : ∀ c, (![0] : Fin 1 → Nat) c < S1.size c) :
    extractAt ![0] (extractStridedSlice S1 ![0] v hs) hp = v (ix1 0) := by
  show v _ = v _
  congr 1; funext c; apply Fin.ext
  match c with
  | ⟨0, _⟩ => rfl

/-- The scalar read out of a bias at `1`. -/
theorem bias1 (v : S2.Idx → EReal) (hs : S2.Slices ![1] S1) (hp : ∀ c, (![0] : Fin 1 → Nat) c < S1.size c) :
    extractAt ![0] (extractStridedSlice S1 ![1] v hs) hp = v (ix1 1) := by
  show v _ = v _
  congr 1; funext c; apply Fin.ext
  match c with
  | ⟨0, _⟩ => rfl

/-- The zero word is the real number zero. -/
theorem zero_word : Scalar.ofBits (F := Ideal) .f32 0x00000000#32 = (0 : EReal) := by
  show Ideal.ofBits .f32 0x00000000#32 = 0
  exact Ideal.ofBits_zero_f32

/-- Column 0 of the block as a vector of length 16384: entry `j` is the block's entry `(j, 0)`. -/
theorem flat_col0 (X : Vec Ideal S16384x2 .f32) (h : S16384x1.ShapeCasts S16384) (j : S16384.Idx) :
    shapeCast (s := S16384x1) (α := Ideal .f32) S16384 (View.ld (Val := Elt Ideal) X r0_0) h j = X (ix2 (j 0) 0) := by
  rw [eq_ix1 j]
  exact (flat_apply (View.ld (Val := Elt Ideal) X r0_0) h (j 0)).trans (ld_col0 X (j 0))

/-- Column 1 of the block as a vector of length 16384: entry `j` is the block's entry `(j, 1)`. -/
theorem flat_col1 (X : Vec Ideal S16384x2 .f32) (h : S16384x1.ShapeCasts S16384) (j : S16384.Idx) :
    shapeCast (s := S16384x1) (α := Ideal .f32) S16384 (View.ld (Val := Elt Ideal) X r0_1) h j = X (ix2 (j 0) 1) := by
  rw [eq_ix1 j]
  exact (flat_apply (View.ld (Val := Elt Ideal) X r0_1) h (j 0)).trans (ld_col1 X (j 0))

/-! ## The block -/

/-- THE BLOCK AFTER THE BODY: at `(r, j)` it holds coordinate `j` of the network on row `r` of the input block. Each of the
    two stored columns is, entry by entry, the same tree of products, sums and maxima as the row-level network. -/
theorem out_block (x0 : Vec Ideal S16384x2 .f32) (x1 : Vec Ideal S2x2 .f32) (x2 : Vec Ideal S2 .f32) (x3 : Vec Ideal S2x2 .f32) (x4 : Vec Ideal S2 .f32) (x5 : Vec Ideal S2x2 .f32) (x6 : Vec Ideal S2 .f32) (x7 : Vec Ideal S2x2 .f32) (x8 : Vec Ideal S2 .f32) (x9 : Vec Ideal S2x2 .f32) (x10 : Vec Ideal S2 .f32) (x11 : Vec Ideal S2x2 .f32) (x12 : Vec Ideal S2 .f32) (x13 : Vec Ideal S2x2 .f32) (x14 : Vec Ideal S2 .f32) (x15 : Vec Ideal S2x2 .f32) (x16 : Vec Ideal S2 .f32) :
    out0_17 (F := Ideal) x0 x1 x2 x3 x4 x5 x6 x7 x8 x9 x10 x11 x12 x13 x14 x15 x16 = (fun y => net ⟨x1, x2, x3, x4, x5, x6, x7, x8, x9, x10, x11, x12, x13, x14, x15, x16⟩ (fun k => x0 (ix2 (y 0) k)) (y 1) : S16384x2.Idx → EReal) := by
  funext y
  unfold out0_17
  refine View.canon_apply_of_pieces (Val := Elt Ideal) (S := S16384x2) (e := .f32) (fun y => net ⟨x1, x2, x3, x4, x5, x6, x7, x8, x9, x10, x11, x12, x13, x14, x15, x16⟩ (fun k => x0 (ix2 (y 0) k)) (y 1)) _ ?_ y (cover0_17 _ _ y)
  intro pc hpc x
  rcases List.mem_cons.mp hpc with rfl | hpc
  · have e : r0_1.emb x = ix2 (x 0) 1 := by
      funext a; apply Fin.ext
      match a with
      | ⟨0, _⟩ => show 0 + 1 * (x 0).val = (x 0).val; omega
      | ⟨1, _⟩ => have h1 : (x 1).val < 1 := (x 1).isLt; show 1 + 1 * (x 1).val = 1; omega
    show _ = net ⟨x1, x2, x3, x4, x5, x6, x7, x8, x9, x10, x11, x12, x13, x14, x15, x16⟩ (fun k => x0 (ix2 ((r0_1.emb x) 0) k)) ((r0_1.emb x) 1)
    rw [e]
    show _ = net ⟨x1, x2, x3, x4, x5, x6, x7, x8, x9, x10, x11, x12, x13, x14, x15, x16⟩ (fun k => x0 (ix2 (x 0) k)) 1
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, column_apply, flat_col0, flat_col1, View.ld_unit_zero (S := S2x2) hz2x2, View.ld_unit_zero (S := S2) hz2, entry00, entry01, entry10, entry11, bias0, bias1, mulf_apply, addf_apply, maximumf_apply, broadcast_apply, zero_word, net, trunk, branch, lin, relu, add]

  rcases List.mem_cons.mp hpc with rfl | hpc
  · have e : r0_0.emb x = ix2 (x 0) 0 := by
      funext a; apply Fin.ext
      match a with
      | ⟨0, _⟩ => show 0 + 1 * (x 0).val = (x 0).val; omega
      | ⟨1, _⟩ => have h1 : (x 1).val < 1 := (x 1).isLt; show 0 + 1 * (x 1).val = 0; omega
    show _ = net ⟨x1, x2, x3, x4, x5, x6, x7, x8, x9, x10, x11, x12, x13, x14, x15, x16⟩ (fun k => x0 (ix2 ((r0_0.emb x) 0) k)) ((r0_0.emb x) 1)
    rw [e]
    show _ = net ⟨x1, x2, x3, x4, x5, x6, x7, x8, x9, x10, x11, x12, x13, x14, x15, x16⟩ (fun k => x0 (ix2 (x 0) k)) 0
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, column_apply, flat_col0, flat_col1, View.ld_unit_zero (S := S2x2) hz2x2, View.ld_unit_zero (S := S2) hz2, entry00, entry01, entry10, entry11, bias0, bias1, mulf_apply, addf_apply, maximumf_apply, broadcast_apply, zero_word, net, trunk, branch, lin, relu, add]

  nomatch hpc

end Cert.KernelIdeal.Block

end
-- ==== Proof.KernelArray.lean ====
/-
  From the blocks to the whole array.

  Grid point `t` of the 512 stages rows `16384·t … 16384·t + 16383` of the input (both columns) and the sixteen whole
  parameter arrays, and writes back the same rows of the output. So what point `t` writes back is block `t` of the array
  `G` — the network applied to every row of the input —, and the 512 blocks tile the output: after the run the output
  array is `G`.
-/
import proofs.«164554_j29884382446070_1_alg».proof.Proof.Gen.KernelIdeal.Value
import proofs.«164554_j29884382446070_1_alg».proof.Proof.KernelBlock

noncomputable section

namespace Cert.KernelIdeal.Whole

open Cert.KernelIdeal Cert.KernelIdeal.Gen Cert.RowNet Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The network's parameters as core `c` finds them when the region is entered. -/
abbrev params (c : Dev nD) : Params := ⟨V m c main_arg1, V m c main_arg2, V m c main_arg3, V m c main_arg4, V m c main_arg5, V m c main_arg6, V m c main_arg7, V m c main_arg8, V m c main_arg9, V m c main_arg10, V m c main_arg11, V m c main_arg12, V m c main_arg13, V m c main_arg14, V m c main_arg15, V m c main_arg16⟩

/-- The index maps over the grid: the input's and the output's row-block index is the point's position and their column-block
    index is zero; every parameter window sits at block zero. -/
theorem idx_facts : ∀ t : Fin cfg0.N, win0_0.index t (0 : Fin 2) = t.val
    ∧ win0_0.index t (1 : Fin 2) = 0
    ∧ win0_17.index t (0 : Fin 2) = t.val
    ∧ win0_17.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = 0
    ∧ win0_11.index t (1 : Fin 2) = 0
    ∧ win0_12.index t (0 : Fin 1) = 0
    ∧ win0_13.index t (0 : Fin 2) = 0
    ∧ win0_13.index t (1 : Fin 2) = 0
    ∧ win0_14.index t (0 : Fin 1) = 0
    ∧ win0_15.index t (0 : Fin 2) = 0
    ∧ win0_15.index t (1 : Fin 2) = 0
    ∧ win0_16.index t (0 : Fin 1) = 0 :=
  (by decide +kernel : ∀ t : Fin grid0.N, _)

theorem blk_arg1 (c : Dev nD) (t : Fin cfg0.N) : iblk m c 1 t = V m c main_arg1 := by
  funext y
  show V m c main_arg1 (((cfg0.win 1).blk t).view.emb y) = V m c main_arg1 y
  refine congrArg _ (funext fun a => Fin.ext ?_)
  have f := idx_facts t
  match a with
  | ⟨0, _⟩ => show win0_1.index t (0 : Fin 2) * 2 + 1 * (y 0).val = (y 0).val; omega
  | ⟨1, _⟩ => show win0_1.index t (1 : Fin 2) * 2 + 1 * (y 1).val = (y 1).val; omega

theorem blk_arg2 (c : Dev nD) (t : Fin cfg0.N) : iblk m c 2 t = V m c main_arg2 := by
  funext y
  show V m c main_arg2 (((cfg0.win 2).blk t).view.emb y) = V m c main_arg2 y
  refine congrArg _ (funext fun a => Fin.ext ?_)
  have f := idx_facts t
  match a with
  | ⟨0, _⟩ => show win0_2.index t (0 : Fin 1) * 2 + 1 * (y 0).val = (y 0).val; omega

theorem blk_arg3 (c : Dev nD) (t : Fin cfg0.N) : iblk m c 3 t = V m c main_arg3 := by
  funext y
  show V m c main_arg3 (((cfg0.win 3).blk t).view.emb y) = V m c main_arg3 y
  refine congrArg _ (funext fun a => Fin.ext ?_)
  have f := idx_facts t
  match a with
  | ⟨0, _⟩ => show win0_3.index t (0 : Fin 2) * 2 + 1 * (y 0).val = (y 0).val; omega
  | ⟨1, _⟩ => show win0_3.index t (1 : Fin 2) * 2 + 1 * (y 1).val = (y 1).val; omega

theorem blk_arg4 (c : Dev nD) (t : Fin cfg0.N) : iblk m c 4 t = V m c main_arg4 := by
  funext y
  show V m c main_arg4 (((cfg0.win 4).blk t).view.emb y) = V m c main_arg4 y
  refine congrArg _ (funext fun a => Fin.ext ?_)
  have f := idx_facts t
  match a with
  | ⟨0, _⟩ => show win0_4.index t (0 : Fin 1) * 2 + 1 * (y 0).val = (y 0).val; omega

theorem blk_arg5 (c : Dev nD) (t : Fin cfg0.N) : iblk m c 5 t = V m c main_arg5 := by
  funext y
  show V m c main_arg5 (((cfg0.win 5).blk t).view.emb y) = V m c main_arg5 y
  refine congrArg _ (funext fun a => Fin.ext ?_)
  have f := idx_facts t
  match a with
  | ⟨0, _⟩ => show win0_5.index t (0 : Fin 2) * 2 + 1 * (y 0).val = (y 0).val; omega
  | ⟨1, _⟩ => show win0_5.index t (1 : Fin 2) * 2 + 1 * (y 1).val = (y 1).val; omega

theorem blk_arg6 (c : Dev nD) (t : Fin cfg0.N) : iblk m c 6 t = V m c main_arg6 := by
  funext y
  show V m c main_arg6 (((cfg0.win 6).blk t).view.emb y) = V m c main_arg6 y
  refine congrArg _ (funext fun a => Fin.ext ?_)
  have f := idx_facts t
  match a with
  | ⟨0, _⟩ => show win0_6.index t (0 : Fin 1) * 2 + 1 * (y 0).val = (y 0).val; omega

theorem blk_arg7 (c : Dev nD) (t : Fin cfg0.N) : iblk m c 7 t = V m c main_arg7 := by
  funext y
  show V m c main_arg7 (((cfg0.win 7).blk t).view.emb y) = V m c main_arg7 y
  refine congrArg _ (funext fun a => Fin.ext ?_)
  have f := idx_facts t
  match a with
  | ⟨0, _⟩ => show win0_7.index t (0 : Fin 2) * 2 + 1 * (y 0).val = (y 0).val; omega
  | ⟨1, _⟩ => show win0_7.index t (1 : Fin 2) * 2 + 1 * (y 1).val = (y 1).val; omega

theorem blk_arg8 (c : Dev nD) (t : Fin cfg0.N) : iblk m c 8 t = V m c main_arg8 := by
  funext y
  show V m c main_arg8 (((cfg0.win 8).blk t).view.emb y) = V m c main_arg8 y
  refine congrArg _ (funext fun a => Fin.ext ?_)
  have f := idx_facts t
  match a with
  | ⟨0, _⟩ => show win0_8.index t (0 : Fin 1) * 2 + 1 * (y 0).val = (y 0).val; omega

theorem blk_arg9 (c : Dev nD) (t : Fin cfg0.N) : iblk m c 9 t = V m c main_arg9 := by
  funext y
  show V m c main_arg9 (((cfg0.win 9).blk t).view.emb y) = V m c main_arg9 y
  refine congrArg _ (funext fun a => Fin.ext ?_)
  have f := idx_facts t
  match a with
  | ⟨0, _⟩ => show win0_9.index t (0 : Fin 2) * 2 + 1 * (y 0).val = (y 0).val; omega
  | ⟨1, _⟩ => show win0_9.index t (1 : Fin 2) * 2 + 1 * (y 1).val = (y 1).val; omega

theorem blk_arg10 (c : Dev nD) (t : Fin cfg0.N) : iblk m c 10 t = V m c main_arg10 := by
  funext y
  show V m c main_arg10 (((cfg0.win 10).blk t).view.emb y) = V m c main_arg10 y
  refine congrArg _ (funext fun a => Fin.ext ?_)
  have f := idx_facts t
  match a with
  | ⟨0, _⟩ => show win0_10.index t (0 : Fin 1) * 2 + 1 * (y 0).val = (y 0).val; omega

theorem blk_arg11 (c : Dev nD) (t : Fin cfg0.N) : iblk m c 11 t = V m c main_arg11 := by
  funext y
  show V m c main_arg11 (((cfg0.win 11).blk t).view.emb y) = V m c main_arg11 y
  refine congrArg _ (funext fun a => Fin.ext ?_)
  have f := idx_facts t
  match a with
  | ⟨0, _⟩ => show win0_11.index t (0 : Fin 2) * 2 + 1 * (y 0).val = (y 0).val; omega
  | ⟨1, _⟩ => show win0_11.index t (1 : Fin 2) * 2 + 1 * (y 1).val = (y 1).val; omega

theorem blk_arg12 (c : Dev nD) (t : Fin cfg0.N) : iblk m c 12 t = V m c main_arg12 := by
  funext y
  show V m c main_arg12 (((cfg0.win 12).blk t).view.emb y) = V m c main_arg12 y
  refine congrArg _ (funext fun a => Fin.ext ?_)
  have f := idx_facts t
  match a with
  | ⟨0, _⟩ => show win0_12.index t (0 : Fin 1) * 2 + 1 * (y 0).val = (y 0).val; omega

theorem blk_arg13 (c : Dev nD) (t : Fin cfg0.N) : iblk m c 13 t = V m c main_arg13 := by
  funext y
  show V m c main_arg13 (((cfg0.win 13).blk t).view.emb y) = V m c main_arg13 y
  refine congrArg _ (funext fun a => Fin.ext ?_)
  have f := idx_facts t
  match a with
  | ⟨0, _⟩ => show win0_13.index t (0 : Fin 2) * 2 + 1 * (y 0).val = (y 0).val; omega
  | ⟨1, _⟩ => show win0_13.index t (1 : Fin 2) * 2 + 1 * (y 1).val = (y 1).val; omega

theorem blk_arg14 (c : Dev nD) (t : Fin cfg0.N) : iblk m c 14 t = V m c main_arg14 := by
  funext y
  show V m c main_arg14 (((cfg0.win 14).blk t).view.emb y) = V m c main_arg14 y
  refine congrArg _ (funext fun a => Fin.ext ?_)
  have f := idx_facts t
  match a with
  | ⟨0, _⟩ => show win0_14.index t (0 : Fin 1) * 2 + 1 * (y 0).val = (y 0).val; omega

theorem blk_arg15 (c : Dev nD) (t : Fin cfg0.N) : iblk m c 15 t = V m c main_arg15 := by
  funext y
  show V m c main_arg15 (((cfg0.win 15).blk t).view.emb y) = V m c main_arg15 y
  refine congrArg _ (funext fun a => Fin.ext ?_)
  have f := idx_facts t
  match a with
  | ⟨0, _⟩ => show win0_15.index t (0 : Fin 2) * 2 + 1 * (y 0).val = (y 0).val; omega
  | ⟨1, _⟩ => show win0_15.index t (1 : Fin 2) * 2 + 1 * (y 1).val = (y 1).val; omega

theorem blk_arg16 (c : Dev nD) (t : Fin cfg0.N) : iblk m c 16 t = V m c main_arg16 := by
  funext y
  show V m c main_arg16 (((cfg0.win 16).blk t).view.emb y) = V m c main_arg16 y
  refine congrArg _ (funext fun a => Fin.ext ?_)
  have f := idx_facts t
  match a with
  | ⟨0, _⟩ => show win0_16.index t (0 : Fin 1) * 2 + 1 * (y 0).val = (y 0).val; omega

/-- The global row that local row `r` of point `t`'s block is. -/
def rowAt (t : Fin cfg0.N) (r : Fin 16384) : Fin 8388608 :=
  ⟨t.val * 16384 + r.val, by have ht : t.val < 512 := t.isLt; have hr := r.isLt; omega⟩

/-- The input window's block at point `t`, read at local `(r, k)`, is the input array at global row `rowAt t r`. -/
theorem blk_input (c : Dev nD) (t : Fin cfg0.N) (r : Fin 16384) (k : Fin 2) :
    iblk m c 0 t (ix2 r k) = V m c main_arg0 (ix2 (rowAt t r) k) := by
  show V m c main_arg0 (((cfg0.win 0).blk t).view.emb (ix2 r k)) = _
  refine congrArg _ (funext fun a => Fin.ext ?_)
  have f := idx_facts t
  match a with
  | ⟨0, _⟩ => show win0_0.index t (0 : Fin 2) * 16384 + 1 * r.val = t.val * 16384 + r.val; omega
  | ⟨1, _⟩ => show win0_0.index t (1 : Fin 2) * 2 + 1 * k.val = k.val; omega

/-- The output window's block at point `t` places its local `(r, j)` at global `(rowAt t r, j)`. -/
theorem emb_output (t : Fin cfg0.N) (j : S16384x2.Idx) :
    ((cfg0.win 17).blk t).view.emb j = ix2 (rowAt t (j 0)) (j 1) := by
  funext a; apply Fin.ext
  have f := idx_facts t
  match a with
  | ⟨0, _⟩ => show win0_17.index t (0 : Fin 2) * 16384 + 1 * (j 0).val = t.val * 16384 + (j 0).val; omega
  | ⟨1, _⟩ => show win0_17.index t (1 : Fin 2) * 2 + 1 * (j 1).val = (j 1).val; omega

/-- The block the body leaves at point `t`, read at local `(r, j)`, is the network on global row `rowAt t r` of the input
    array, coordinate `j`: the parameter windows hold the whole parameter arrays, the input window rows `16384·t …`. -/
theorem block_at (c : Dev nD) (t : Fin cfg0.N) (j : S16384x2.Idx) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) j = G (params m c) (V m c main_arg0) (ix2 (rowAt t (j 0)) (j 1)) := by
  refine (congrFun (Block.out_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) j).trans ?_
  show net ⟨iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t⟩ (fun k => iblk m c 0 t (ix2 (j 0) k)) (j 1) = net (params m c) (rowOf (V m c main_arg0) (rowAt t (j 0))) (j 1)
  rw [blk_arg1, blk_arg2, blk_arg3, blk_arg4, blk_arg5, blk_arg6, blk_arg7, blk_arg8, blk_arg9, blk_arg10, blk_arg11, blk_arg12, blk_arg13, blk_arg14, blk_arg15, blk_arg16]
  refine congrArg (fun u => net (params m c) u (j 1)) (funext fun k => ?_)
  exact blk_input m c t (j 0) k

/-- WHAT POINT `t` WRITES BACK is block `t` of the network applied to every row of the input array. -/
theorem flushed_eq (c : Dev nD) (t : Fin cfg0.N) :
    (dats m 0 c).flushed 17 t = ((cfg0.win 17).blk t).view.read (Elt Ideal) (G (params m c) (V m c main_arg0)) := by
  rw [Value.flushed17]
  show (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) = _
  funext j
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) j = G (params m c) (V m c main_arg0) (((cfg0.win 17).blk t).view.emb j)
  exact (block_at m c t j).trans (congrArg (G (params m c) (V m c main_arg0)) (emb_output t j).symm)

/-- An index of the output array is in point `t`'s block iff each coordinate is in the block's range on its axis. -/
theorem mem_blk (t : Fin cfg0.N) (i : S8388608x2.Idx) :
    i ∈ ((cfg0.win 17).blk t).view.set ↔ ∀ a : Fin 2, win0_17.index t a * S16384x2.size a ≤ (i a).val ∧ (i a).val < win0_17.index t a * S16384x2.size a + S16384x2.size a := by
  show i ∈ ((View.whole main_v0).slice (win0_17.rect t)).set ↔ _
  rw [View.set_slice_whole, Rect.mem_set_unit]
  exact Iff.rfl

/-- The 512 blocks tile the output: row `n` lies in the block of point `n / 16384`. -/
theorem cover (i : S8388608x2.Idx) :
    ∃ t : Fin cfg0.N, (cfg0.win 17).flush t = true ∧ i ∈ ((cfg0.win 17).blk t).view.set := by
  have hi0 : (i 0).val < 8388608 := (i 0).isLt
  have hi1 : (i 1).val < 2 := (i 1).isLt
  have h512 : cfg0.N = 512 := N_0
  let t : Fin cfg0.N := ⟨(i 0).val / 16384, by omega⟩
  have ht : t.val = (i 0).val / 16384 := rfl
  refine ⟨t, flush0_17 t, ?_⟩
  rw [mem_blk]
  have f := idx_facts t
  intro a
  match a with
  | ⟨0, _⟩ => show win0_17.index t (0 : Fin 2) * 16384 ≤ (i 0).val ∧ (i 0).val < win0_17.index t (0 : Fin 2) * 16384 + 16384; omega
  | ⟨1, _⟩ => show win0_17.index t (1 : Fin 2) * 2 ≤ (i 1).val ∧ (i 1).val < win0_17.index t (1 : Fin 2) * 2 + 2; omega

/-- THE OUTPUT ARRAY after the run is the network applied to every row of the input array. -/
theorem final (c : Dev nD) : (dats m 0 c).arrAt 17 cfg0.N = G (params m c) (V m c main_arg0) :=
  (dats m 0 c).arrAt_eq_of_cover 17 (G (params m c) (V m c main_arg0)) (fun t _ => flushed_eq m c t) cover

end Cert.KernelIdeal.Whole

end
-- ==== Proof.RefRows.lean ====
/-
  The reference, row by row.

  The reference applies each layer to the whole [8388608, 2] array: the array times the transposed weight matrix (a
  contraction over the two input coordinates), plus the bias broadcast along the rows, then the maximum with zero. Entry
  `(n, j)` of such a layer depends on row `n` of its operand only: it is coordinate `j` of the row-level layer on that row.
  Composing the layers as the reference does, row `n` of its result is the network on row `n` of the input.
-/
import proofs.«164554_j29884382446070_1_alg».proof.Proof.Gen.ReferenceIdeal.Read
import proofs.«164554_j29884382446070_1_alg».proof.Proof.Spec

noncomputable section

namespace Cert.ReferenceIdeal.Rows

open Cert.ReferenceIdeal Cert.ReferenceIdeal.Read Cert.RowNet Idealize.ShloMosaic Idealize.ShloMosaic.ValueIdx

/-- The entrywise sum of two arrays, row by row. -/
theorem rowOf_sum (Y Z : Arr) (n : Fin 8388608) :
    rowOf (addf (F := Ideal) (s := S8388608x2) (φ := .f32) Y Z) n = add (rowOf Y n) (rowOf Z n) := rfl

/-- One affine layer of the reference (the product with the transposed weights, plus the broadcast bias), row by row:
    the contraction over the two input coordinates is the sum of the two products. -/
theorem rowOf_affine (Y : Arr) (w : Mat) (b : Bias) (n : Fin 8388608) :
    rowOf (val_main_v4 (F := Ideal) Y w b) n = lin w b (rowOf Y n) := by
  funext j
  show val_main_v4 (F := Ideal) Y w b (ix2 n j) = _
  have el : ∀ k : Fin 2, lidx_main_v1 (ix2 n j) k = ix2 n k := fun k => funext fun a => by
    match a with
    | ⟨0, _⟩ => rfl
    | ⟨1, _⟩ => rfl
  have er : ∀ k : Fin 2, idx_main_v0 (ridx_main_v1 (ix2 n j) k) = ix2 j k := fun k => funext fun a => by
    match a with
    | ⟨0, _⟩ => rfl
    | ⟨1, _⟩ => rfl
  have eb : idx_main_v2 (idx_main_v3 (ix2 n j)) = ix1 j := funext fun a => by
    match a with
    | ⟨0, _⟩ => rfl
  rw [val_main_v4_apply, val_main_v1_apply, val_main_v3_apply, val_main_v2_apply, Fin.sum_univ_two,
    val_main_v0_apply, val_main_v0_apply, el, el, er, er, eb]
  rfl

/-- The maximum with the zero array, row by row. -/
theorem rowOf_relu (Y : Arr) (n : Fin 8388608) :
    rowOf (maximumf (F := Ideal) (s := S8388608x2) (φ := .f32) Y (val_main_call0_v0 (F := Ideal))) n = relu (rowOf Y n) := by
  funext j
  show max (Y (ix2 n j)) (val_main_call0_v0 (F := Ideal) (ix2 n j)) = max (Y (ix2 n j)) 0
  rw [val_main_call0_v0_apply, val_main_call0_cst_apply]
  show max (Y (ix2 n j)) (Ideal.ofBits .f32 0x00000000#32) = _
  rw [Ideal.ofBits_zero_f32]

/-- One layer followed by the maximum with zero, row by row. -/
theorem rowOf_layer (Y : Arr) (w : Mat) (b : Bias) (n : Fin 8388608) :
    rowOf (val_main_v5 (F := Ideal) Y w b) n = relu (lin w b (rowOf Y n)) := by
  show rowOf (maximumf (F := Ideal) (s := S8388608x2) (φ := .f32) (val_main_v4 (F := Ideal) Y w b) (val_main_call0_v0 (F := Ideal))) n = _
  rw [rowOf_relu, rowOf_affine]

/-- Row `n` of the reference's result is the network on row `n` of its input. -/
theorem rowOf_result (x0 : Arr) (x1 : Mat) (x2 : Bias) (x3 : Mat) (x4 : Bias) (x5 : Mat) (x6 : Bias) (x7 : Mat) (x8 : Bias) (x9 : Mat) (x10 : Bias) (x11 : Mat) (x12 : Bias) (x13 : Mat) (x14 : Bias) (x15 : Mat) (x16 : Bias) (n : Fin 8388608) :
    rowOf (val_main_v56 (F := Ideal) x0 x1 x2 x3 x4 x5 x6 x7 x8 x9 x10 x11 x12 x13 x14 x15 x16) n = net ⟨x1, x2, x3, x4, x5, x6, x7, x8, x9, x10, x11, x12, x13, x14, x15, x16⟩ (rowOf x0 n) := by
  have h18 : rowOf (val_main_v18 (F := Ideal) x0 x1 x2 x3 x4 x5 x6) n = trunk ⟨x1, x2, x3, x4, x5, x6, x7, x8, x9, x10, x11, x12, x13, x14, x15, x16⟩ (rowOf x0 n) := by
    show rowOf (addf (F := Ideal) (s := S8388608x2) (φ := .f32) (val_main_v5 (F := Ideal) (val_main_v5 (F := Ideal) (val_main_v5 (F := Ideal) x0 x1 x2) x3 x4) x5 x6) x0) n = _
    rw [rowOf_sum, rowOf_layer, rowOf_layer, rowOf_layer]
    rfl
  have h31 : rowOf (val_main_v31 (F := Ideal) x0 x1 x2 x3 x4 x5 x6 x7 x8 x9 x10) n = branch x7 x8 x9 x10 (trunk ⟨x1, x2, x3, x4, x5, x6, x7, x8, x9, x10, x11, x12, x13, x14, x15, x16⟩ (rowOf x0 n)) := by
    show rowOf (addf (F := Ideal) (s := S8388608x2) (φ := .f32) (val_main_v5 (F := Ideal) (val_main_v5 (F := Ideal) (val_main_v18 (F := Ideal) x0 x1 x2 x3 x4 x5 x6) x7 x8) x9 x10) (val_main_v18 (F := Ideal) x0 x1 x2 x3 x4 x5 x6)) n = _
    rw [rowOf_sum, rowOf_layer, rowOf_layer, h18]
    rfl
  have h44 : rowOf (val_main_v44 (F := Ideal) x0 x1 x2 x3 x4 x5 x6 x11 x12 x13 x14) n = branch x11 x12 x13 x14 (trunk ⟨x1, x2, x3, x4, x5, x6, x7, x8, x9, x10, x11, x12, x13, x14, x15, x16⟩ (rowOf x0 n)) := by
    show rowOf (addf (F := Ideal) (s := S8388608x2) (φ := .f32) (val_main_v5 (F := Ideal) (val_main_v5 (F := Ideal) (val_main_v18 (F := Ideal) x0 x1 x2 x3 x4 x5 x6) x11 x12) x13 x14) (val_main_v18 (F := Ideal) x0 x1 x2 x3 x4 x5 x6)) n = _
    rw [rowOf_sum, rowOf_layer, rowOf_layer, h18]
    rfl
  show rowOf (maximumf (F := Ideal) (s := S8388608x2) (φ := .f32) (addf (F := Ideal) (s := S8388608x2) (φ := .f32) (val_main_v4 (F := Ideal) (val_main_v31 (F := Ideal) x0 x1 x2 x3 x4 x5 x6 x7 x8 x9 x10) x15 x16) (val_main_v4 (F := Ideal) (val_main_v44 (F := Ideal) x0 x1 x2 x3 x4 x5 x6 x11 x12 x13 x14) x15 x16)) (val_main_call0_v0 (F := Ideal))) n = _
  rw [rowOf_relu, rowOf_sum, rowOf_affine, rowOf_affine, h31, h44]
  rfl

/-- The reference's result is the network applied to every row of its input. -/
theorem result_eq (x0 : Arr) (x1 : Mat) (x2 : Bias) (x3 : Mat) (x4 : Bias) (x5 : Mat) (x6 : Bias) (x7 : Mat) (x8 : Bias) (x9 : Mat) (x10 : Bias) (x11 : Mat) (x12 : Bias) (x13 : Mat) (x14 : Bias) (x15 : Mat) (x16 : Bias) :
    val_main_v56 (F := Ideal) x0 x1 x2 x3 x4 x5 x6 x7 x8 x9 x10 x11 x12 x13 x14 x15 x16 = G ⟨x1, x2, x3, x4, x5, x6, x7, x8, x9, x10, x11, x12, x13, x14, x15, x16⟩ x0 :=
  arr_ext fun n => (rowOf_result x0 x1 x2 x3 x4 x5 x6 x7 x8 x9 x10 x11 x12 x13 x14 x15 x16 n).trans rfl

end Cert.ReferenceIdeal.Rows

end
-- ==== Proof.lean ====
/-
  A chain of tiny 2×2 linear layers with relu and residuals, applied independently to each of the 8388608 rows of an
  [8388608, 2] array: the kernel against the plain array program.

  Both programs compute, on every row `x` of the input, the same network (Proof/Spec.lean):

      o = relu (L₁₃ (relu (L₁₂ (relu (L₁₁ x))))) + x,   p = relu (L₂₂ (relu (L₂₁ o))) + o,   q = relu (L₃₂ (relu (L₃₁ o))) + o,
      y = relu (L₄₁ p + L₄₁ q),

  where a layer `L` with weights `w` (stored [out, in]) and bias `b` sends a row `u` to `(u₀·w(j,0) + u₁·w(j,1) + b(j))ⱼ`.

  The kernel works on blocks of 16384 rows: it splits a block into its two columns, evaluates the network on them as
  two lane-dense vectors with the weights' entries splatted as scalars, and stores the two result columns; each block
  of the output is the network on the same rows of the input (Proof/KernelBlock.lean), and the 512 blocks tile the output
  (Proof/KernelArray.lean). The reference multiplies the whole array by each transposed weight matrix — a contraction over
  the two input coordinates, which at the extended reals is the sum of the two products —, adds the broadcast bias and takes
  the maximum with zero; row by row that is the same layer (Proof/RefRows.lean). The two programs perform the same
  products, sums and maxima in the same order on every entry, so the results agree as extended reals with no appeal to
  finiteness of the inputs.

  The idealization of the kernel rewrote nothing (its ledger is empty), so `preserves` is trivial; the three frames are the
  generated ones (the reference's is its generated run with the result forgotten).
-/
import proofs.«164554_j29884382446070_1_alg».proof.Defs
import proofs.«164554_j29884382446070_1_alg».proof.Proof.Gen.Kernel
import proofs.«164554_j29884382446070_1_alg».proof.Proof.Gen.Kernel.Skeleton
import proofs.«164554_j29884382446070_1_alg».proof.Proof.Gen.Kernel.Launch
import proofs.«164554_j29884382446070_1_alg».proof.Proof.Gen.Kernel.Points
import proofs.«164554_j29884382446070_1_alg».proof.Proof.Gen.Kernel.Frame
import proofs.«164554_j29884382446070_1_alg».proof.Proof.Gen.KernelIdeal
import proofs.«164554_j29884382446070_1_alg».proof.Proof.Gen.KernelIdeal.Skeleton
import proofs.«164554_j29884382446070_1_alg».proof.Proof.Gen.KernelIdeal.Launch
import proofs.«164554_j29884382446070_1_alg».proof.Proof.Gen.KernelIdeal.Points
import proofs.«164554_j29884382446070_1_alg».proof.Proof.Gen.KernelIdeal.Frame
import proofs.«164554_j29884382446070_1_alg».proof.Proof.Gen.ReferenceIdeal
import proofs.«164554_j29884382446070_1_alg».proof.Proof.Gen.Pre_finite_inputs
import proofs.«164554_j29884382446070_1_alg».proof.Proof.Gen.KernelIdeal.Value
import proofs.«164554_j29884382446070_1_alg».proof.Proof.Gen.ReferenceIdeal.Run
import proofs.«164554_j29884382446070_1_alg».proof.Proof.Gen.ReferenceIdeal.Read
import proofs.«164554_j29884382446070_1_alg».proof.Proof.KernelArray
import proofs.«164554_j29884382446070_1_alg».proof.Proof.RefRows
import Idealize.ShloMosaic.Adequacy
import Idealize.ShloMosaic.Init

noncomputable section

namespace Cert.Proof

open Idealize.ShloMosaic Idealize.SL.Sem Cert.Kernel

/-- The word-level kernel's frame: generated whole. -/
theorem frame_k : Cert.frame_Kernel (hKernel := Cert.Kernel.Gen.facts) (hPre_finite_inputs := Cert.Pre_finite_inputs.Gen.facts) :=
  fun m ρ _ => Cert.Kernel.Gen.frame m ρ

/-- The idealized kernel's frame: generated whole. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the seventeen arguments, both programs end with the network applied to every row of the
    input: the kernel block by block, the reference layer by layer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.RowNet.G (Cert.KernelIdeal.Whole.params m c) (Cert.KernelIdeal.Gen.V m c Cert.KernelIdeal.main_arg0), ?_, ?_⟩
  · exact (θ_run Cert.KernelIdeal.defs _ _).mono
      (fun r h c => ⟨(h c).1.trans (Cert.KernelIdeal.Whole.final m c), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.Read.val_main_v56_eq, Cert.ReferenceIdeal.Rows.result_eq, h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
